-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000x32 : Shape := ⟨2, ![1600000, 32]⟩
abbrev S160x32 : Shape := ⟨2, ![160, 32]⟩
abbrev S32 : Shape := ⟨1, ![32]⟩
abbrev S96x64 : Shape := ⟨2, ![96, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S160x32 : S_.BroadcastsInDim S160x32 (![] : Fin 0 → Fin S160x32.rank)
  reducesTo_S160x32_S_d0_1 : S160x32.ReducesTo [0, 1] S_
  bcast_S_S32 : S_.BroadcastsInDim S32 (![] : Fin 0 → Fin S32.rank)
  reducesTo_S32_S_d0 : S32.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S96x64 .f32) (main_arg6 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S96x64 .f32 := Host.absf main_arg5
  let main_cst_6 : FVec F S_ .f32 := constant S_ .f32 0x7F800000#32
  let main_v20 : FVec F S96x64 .f32 := broadcastInDim S96x64 ![] bcast_S_S96x64 main_cst_6
  let main_v21 : IVec S96x64 1 := cmpf .olt main_v19 main_v20
  let main_c_7 : IVec S_ 1 := constantI S_ 1 1#1
  let main_v22 : IVec S_ 1 := (fun x v => Host.reduce IntOp.andi x v reducesTo_S96x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : IVec S2x1600000 32) (main_arg2 : FVec F S1600000x32 .f32) (main_arg3 : FVec F S160x32 .f32) (main_arg4 : FVec F S32 .f32) (main_arg5 : FVec F S96x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S160x32 .f32 := Host.absf main_arg3
  let main_cst_2 : FVec F S_ .f32 := constant S_ .f32 0x7F800000#32
  let main_v10 : FVec F S160x32 .f32 := broadcastInDim S160x32 ![] bcast_S_S160x32 main_cst_2
  let main_v11 : IVec S160x32 1 := cmpf .olt main_v9 main_v10
  let main_c_3 : IVec S_ 1 := constantI S_ 1 1#1
  let main_v12 : IVec S_ 1 := (fun x v => Host.reduce IntOp.andi x v reducesTo_S160x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S50000x64 : Shape := ⟨2, ![50000, 64]⟩
abbrev S2x1600000 : Shape := ⟨2, ![2, 1600000]⟩
abbrev S1600000x32 : Shape := ⟨2, ![1600000, 32]⟩
abbrev S160x32 : Shape := ⟨2, ![160, 32]⟩
abbrev S32 : Shape := ⟨1, ![32]⟩
abbrev S96x64 : Shape := ⟨2, ![96, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S64x32 : Shape := ⟨2, ![64, 32]⟩
abbrev S32x32 : Shape := ⟨2, ![32, 32]⟩
abbrev S1x32 : Shape := ⟨2, ![1, 32]⟩
abbrev S6400x64 : Shape := ⟨2, ![6400, 64]⟩
abbrev S6400x32 : Shape := ⟨2, ![6400, 32]⟩
abbrev S50000x32 : Shape := ⟨2, ![50000, 32]⟩
abbrev S64x64 : Shape := ⟨2, ![64, 64]⟩
abbrev S32x64 : Shape := ⟨2, ![32, 64]⟩
abbrev S1x64 : Shape := ⟨2, ![1, 64]⟩
abbrev S5000x64 : Shape := ⟨2, ![5000, 64]⟩
abbrev S5000x32 : Shape := ⟨2, ![5000, 32]⟩

abbrev nBuf : Space → Nat
  | .hbm => 42
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000x32, .f32⟩
  | .hbm, ⟨3, _⟩ => ⟨S160x32, .f32⟩
  | .hbm, ⟨4, _⟩ => ⟨S32, .f32⟩
  | .hbm, ⟨5, _⟩ => ⟨S96x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S64x32, .f32⟩
  | .hbm, ⟨30, _⟩ => ⟨S64x32, .f32⟩
  | .hbm, ⟨31, _⟩ => ⟨S32x32, .f32⟩
  | .hbm, ⟨32, _⟩ => ⟨S1x32, .f32⟩
  | .hbm, ⟨33, _⟩ => ⟨S1600000x32, .f32⟩
  | .hbm, ⟨34, _⟩ => ⟨S_, .f32⟩
  | .hbm, ⟨35, _⟩ => ⟨S50000x32, .f32⟩
  | .hbm, ⟨36, _⟩ => ⟨S1600000x1, .i32⟩
  | .hbm, ⟨37, _⟩ => ⟨S50000x32, .f32⟩
  | .hbm, ⟨38, _⟩ => ⟨S64x64, .f32⟩
  | .hbm, ⟨39, _⟩ => ⟨S32x64, .f32⟩
  | .hbm, ⟨40, _⟩ => ⟨S1x64, .f32⟩
  | .hbm, ⟨41, _⟩ => ⟨S50000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x32, .f32⟩
  | .local _ .vmem, ⟨5, _⟩ => ⟨S6400x32, .f32⟩
  | .local _ .vmem, ⟨6, _⟩ => ⟨S64x32, .f32⟩
  | .local _ .vmem, ⟨7, _⟩ => ⟨S64x32, .f32⟩
  | .local _ .vmem, ⟨8, _⟩ => ⟨S32x32, .f32⟩
  | .local _ .vmem, ⟨9, _⟩ => ⟨S1x32, .f32⟩
  | .local _ .vmem, ⟨10, _⟩ => ⟨S6400x32, .f32⟩
  | .local _ .vmem, ⟨11, _⟩ => ⟨S6400x32, .f32⟩
  | .local _ .vmem, ⟨12, _⟩ => ⟨S5000x64, .f32⟩
  | .local _ .vmem, ⟨13, _⟩ => ⟨S5000x64, .f32⟩
  | .local _ .vmem, ⟨14, _⟩ => ⟨S5000x32, .f32⟩
  | .local _ .vmem, ⟨15, _⟩ => ⟨S5000x32, .f32⟩
  | .local _ .vmem, ⟨16, _⟩ => ⟨S64x64, .f32⟩
  | .local _ .vmem, ⟨17, _⟩ => ⟨S32x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S160x32_S64x32_0_0 : S160x32.Slices ![0, 0] S64x32
  slices_S160x32_S64x32_64_0 : S160x32.Slices ![64, 0] S64x32
  slices_S160x32_S32x32_128_0 : S160x32.Slices ![128, 0] S32x32
  shapeCasts_S32_S1x32 : S32.ShapeCasts S1x32
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S6400x32_S6400x32_0_0 : ∀ a, (![0, 0] : Fin 2 → Nat) a + S6400x32.size a ≤ S6400x32.size a
  h_S6400x32 : 0 < S6400x32.numel
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6400x32 : S1x32.Broadcasts S6400x32
  bcast_S_S50000x32 : S_.BroadcastsInDim S50000x32 (![] : Fin 0 → Fin S50000x32.rank)
  slices_S96x64_S64x64_0_0 : S96x64.Slices ![0, 0] S64x64
  slices_S96x64_S32x64_64_0 : S96x64.Slices ![64, 0] S32x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S1600000x1_S1600000x64_1_0_n_n_0_1_164_wf : GatherDims.WF S50000x64 S1600000x1 S1600000x64 [1] [0] [] [0] [] 1 ![1, 64]
  dot_S6400x64_S64x32_S6400x32_1_0_0_1_n_n_wf : DotDims.WF S6400x64 S64x32 S6400x32 [1] [0] [0] [1] [] []
  dot_S6400x32_S32x32_S6400x32_1_0_0_1_n_n_wf : DotDims.WF S6400x32 S32x32 S6400x32 [1] [0] [0] [1] [] []
  scatter_S50000x32_S1600000x1_S1600000x32_1_0_0_1_wf : ScatterDims.WF S50000x32 S1600000x1 S1600000x32 [1] [0] [0] 1
  dot_S5000x64_S64x64_S5000x64_1_0_0_1_n_n_wf : DotDims.WF S5000x64 S64x64 S5000x64 [1] [0] [0] [1] [] []
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x32.size a ≤ S1600000x32.size a
  hwx0_2 : ∀ i : grid0.Coords, EltTy.bits .f32 = 32 ∨ (Rect.block (s := S1600000x32) S6400x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x32.size a ≤ S1600000x32.size a
  hwx0_7 : ∀ i : grid0.Coords, EltTy.bits .f32 = 32 ∨ (Rect.block (s := S1600000x32) S6400x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S6400x64_S64x32_S6400x32_1_0_0_1_n_n : DotDims S6400x64 S64x32 S6400x32 where
  lhsContracting := [1]
  rhsContracting := [0]
  lhsNonContracting := [0]
  rhsNonContracting := [1]
  lhsBatch := []
  rhsBatch := []
  wf := dot_S6400x64_S64x32_S6400x32_1_0_0_1_n_n_wf
def dot_S6400x32_S32x32_S6400x32_1_0_0_1_n_n : DotDims S6400x32 S32x32 S6400x32 where
  lhsContracting := [1]
  rhsContracting := [0]
  lhsNonContracting := [0]
  rhsNonContracting := [1]
  lhsBatch := []
  rhsBatch := []
  wf := dot_S6400x32_S32x32_S6400x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S6400x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000x32 : Shape := ⟨2, ![1600000, 32]⟩
abbrev S160x32 : Shape := ⟨2, ![160, 32]⟩
abbrev S32 : Shape := ⟨1, ![32]⟩
abbrev S96x64 : Shape := ⟨2, ![96, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S1x32 : Shape := ⟨2, ![1, 32]⟩
abbrev S50000x32 : Shape := ⟨2, ![50000, 32]⟩
abbrev S50000x96 : Shape := ⟨2, ![50000, 96]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000x32, .f32⟩
  | .hbm, ⟨3, _⟩ => ⟨S160x32, .f32⟩
  | .hbm, ⟨4, _⟩ => ⟨S32, .f32⟩
  | .hbm, ⟨5, _⟩ => ⟨S96x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x160, .f32⟩
  | .hbm, ⟨30, _⟩ => ⟨S1600000x32, .f32⟩
  | .hbm, ⟨31, _⟩ => ⟨S1x32, .f32⟩
  | .hbm, ⟨32, _⟩ => ⟨S1600000x32, .f32⟩
  | .hbm, ⟨33, _⟩ => ⟨S1600000x32, .f32⟩
  | .hbm, ⟨34, _⟩ => ⟨S_, .f32⟩
  | .hbm, ⟨35, _⟩ => ⟨S1600000x32, .f32⟩
  | .hbm, ⟨36, _⟩ => ⟨S1600000x32, .f32⟩
  | .hbm, ⟨37, _⟩ => ⟨S_, .f32⟩
  | .hbm, ⟨38, _⟩ => ⟨S50000x32, .f32⟩
  | .hbm, ⟨39, _⟩ => ⟨S1600000x1, .i32⟩
  | .hbm, ⟨40, _⟩ => ⟨S50000x32, .f32⟩
  | .hbm, ⟨41, _⟩ => ⟨S50000x96, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_cst : Ref sig .tc := ⟨.hbm, 46, rfl⟩
abbrev main_call1_v0 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S50000x32 : S_.BroadcastsInDim S50000x32 (![] : Fin 0 → Fin S50000x32.rank)
  concatenates_S50000x64_S50000x32_S50000x96_d1 : Shape.Concatenates [S50000x64, S50000x32] S50000x96 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x64_S1600000x1_S1600000x64_1_0_n_n_0_1_164_wf : GatherDims.WF S50000x64 S1600000x1 S1600000x64 [1] [0] [] [0] [] 1 ![1, 64]
  dot_S1600000x160_S160x32_S1600000x32_1_0_0_1_n_n_wf : DotDims.WF S1600000x160 S160x32 S1600000x32 [1] [0] [0] [1] [] []
  scatter_S50000x32_S1600000x1_S1600000x32_1_0_0_1_wf : ScatterDims.WF S50000x32 S1600000x1 S1600000x32 [1] [0] [0] 1
  dot_S50000x96_S96x64_S50000x64_1_0_0_1_n_n_wf : DotDims.WF S50000x96 S96x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x160_S160x32_S1600000x32_1_0_0_1_n_n : DotDims S1600000x160 S160x32 S1600000x32 where
  lhsContracting := [1]
  rhsContracting := [0]
  lhsNonContracting := [0]
  rhsNonContracting := [1]
  lhsBatch := []
  rhsBatch := []
  wf := dot_S1600000x160_S160x32_S1600000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf

class Facts : Prop extends Facts₀ where

variable [Facts]
-- ==== Proof.Spec.lean ====
/-
  The mathematics shared by the two programs, over plain index functions into the extended reals.

  One message-passing layer: for every edge e with endpoints (s, d) the message is
  relu ([x_s ‖ x_d ‖ a_e] · W + b), messages are summed per source node, and every node's new
  feature is relu ([x_n ‖ S_n] · W' + b').  A product of a row that is a concatenation with a
  matrix is the sum of the products of the pieces with the matching row-blocks of the matrix:
  a finite sum over Fin 160 (resp. Fin 96) split at 64 and 128 (resp. at 64).  Only
  commutativity and associativity of addition are used, so the laws hold on all extended reals and
  no finiteness hypothesis is needed.
-/
import Idealize.ShloMosaic.Lib.ValueIdx
import Idealize.ShloMosaic.PureOps.Ideal.Laws

noncomputable section

namespace Cert.MsgPass

open Idealize.ShloMosaic Idealize.ShloMosaic.ValueIdx

/-- A matrix of extended reals with n0 rows and n1 columns. -/
abbrev Mat (n0 n1 : Nat) : Type := (⟨2, ![n0, n1]⟩ : Shape).Idx → EReal
/-- A vector of extended reals of length n. -/
abbrev Row (n : Nat) : Type := (⟨1, ![n]⟩ : Shape).Idx → EReal

/-- The extended real the all-zero 32-bit word denotes (it is 0; the proofs never need to know). -/
abbrev zeroWord : EReal := Ideal.ofBits .f32 0x00000000#32

/-! ## Splitting a finite sum at fixed positions -/

/-- A sum over Fin 160 is the sum over its first 64 positions, plus the next 64, plus the last 32. -/
theorem sum_split_64_64_32 {M : Type*} [AddCommMonoid M] (f : Fin 160 → M) :
    ∑ k : Fin 160, f k
      = (∑ k : Fin 64, f ⟨k.val, by have := k.isLt; omega⟩ + ∑ k : Fin 64, f ⟨64 + k.val, by have := k.isLt; omega⟩)
        + ∑ k : Fin 32, f ⟨128 + k.val, by have := k.isLt; omega⟩ := by
  rw [show (∑ k : Fin 160, f k) = ∑ k : Fin (128 + 32), f k from rfl, Fin.sum_univ_add]
  rw [show (∑ i : Fin 128, f (Fin.castAdd 32 i)) = ∑ i : Fin (64 + 64), f (Fin.castAdd 32 i) from rfl, Fin.sum_univ_add]
  rfl

/-- A sum over Fin 96 is the sum over its first 64 positions plus the last 32. -/
theorem sum_split_64_32 {M : Type*} [AddCommMonoid M] (f : Fin 96 → M) :
    ∑ k : Fin 96, f k
      = ∑ k : Fin 64, f ⟨k.val, by have := k.isLt; omega⟩ + ∑ k : Fin 32, f ⟨64 + k.val, by have := k.isLt; omega⟩ := by
  rw [show (∑ k : Fin 96, f k) = ∑ k : Fin (64 + 32), f k from rfl, Fin.sum_univ_add]
  rfl

/-! ## The edge stage -/

/-- Entry (e, j) of the message array from the three row-blocks of the weight matrix given
    separately and the bias given as a one-row matrix:
    max (((Σ_k g0[e,k]·wa[k,j] + Σ_k g1[e,k]·wb[k,j]) + Σ_k xe[e,k]·wc[k,j]) + b2[0,j]) 0. -/
def edgeBlocksAt (g0 g1 : Mat 1600000 64) (xe : Mat 1600000 32) (wa wb : Mat 64 32) (wc : Mat 32 32) (b2 : Mat 1 32)
    (e : Fin 1600000) (j : Fin 32) : EReal :=
  max (((∑ k : Fin 64, g0 (ix2 e k) * wa (ix2 k j) + ∑ k : Fin 64, g1 (ix2 e k) * wb (ix2 k j))
      + ∑ k : Fin 32, xe (ix2 e k) * wc (ix2 k j)) + b2 (ix2 (0 : Fin 1) j)) zeroWord

/-- The message array in that form. -/
def edgeBlocks (g0 g1 : Mat 1600000 64) (xe : Mat 1600000 32) (wa wb : Mat 64 32) (wc : Mat 32 32) (b2 : Mat 1 32) :
    Mat 1600000 32 := fun i => edgeBlocksAt g0 g1 xe wa wb wc b2 (i 0) (i 1)

/-- Entry (e, j) from the whole weight matrix W (rows 0–63 meet g0, rows 64–127 meet g1, rows
    128–159 meet xe) and the bias as a vector. -/
def edgeWholeAt (g0 g1 : Mat 1600000 64) (xe : Mat 1600000 32) (W : Mat 160 32) (b : Row 32)
    (e : Fin 1600000) (j : Fin 32) : EReal :=
  max (((∑ k : Fin 64, g0 (ix2 e k) * W (ix2 (⟨k.val, by have := k.isLt; omega⟩ : Fin 160) j)
        + ∑ k : Fin 64, g1 (ix2 e k) * W (ix2 (⟨64 + k.val, by have := k.isLt; omega⟩ : Fin 160) j))
      + ∑ k : Fin 32, xe (ix2 e k) * W (ix2 (⟨128 + k.val, by have := k.isLt; omega⟩ : Fin 160) j)) + b (ix1 j)) zeroWord

/-- The message array in that form. -/
def edgeWhole (g0 g1 : Mat 1600000 64) (xe : Mat 1600000 32) (W : Mat 160 32) (b : Row 32) : Mat 1600000 32 :=
  fun i => edgeWholeAt g0 g1 xe W b (i 0) (i 1)

/-- If the three blocks are the row-blocks of W and the one-row matrix is b, the two forms agree. -/
theorem edgeBlocks_eq_edgeWhole (g0 g1 : Mat 1600000 64) (xe : Mat 1600000 32) (wa wb : Mat 64 32) (wc : Mat 32 32)
    (b2 : Mat 1 32) (W : Mat 160 32) (b : Row 32)
    (ha : ∀ (k : Fin 64) (j : Fin 32), wa (ix2 k j) = W (ix2 (⟨k.val, by have := k.isLt; omega⟩ : Fin 160) j))
    (hb : ∀ (k : Fin 64) (j : Fin 32), wb (ix2 k j) = W (ix2 (⟨64 + k.val, by have := k.isLt; omega⟩ : Fin 160) j))
    (hc : ∀ (k : Fin 32) (j : Fin 32), wc (ix2 k j) = W (ix2 (⟨128 + k.val, by have := k.isLt; omega⟩ : Fin 160) j))
    (hbias : ∀ j : Fin 32, b2 (ix2 (0 : Fin 1) j) = b (ix1 j)) :
    edgeBlocks g0 g1 xe wa wb wc b2 = edgeWhole g0 g1 xe W b := by
  have key : ∀ (e : Fin 1600000) (j : Fin 32),
      edgeBlocksAt g0 g1 xe wa wb wc b2 e j = edgeWholeAt g0 g1 xe W b e j := by
    intro e j
    unfold edgeBlocksAt edgeWholeAt
    simp only [ha, hb, hc, hbias]
  exact funext fun i => key (i 0) (i 1)

/-! ## The node stage -/

/-- Entry (n, j) of the new node features from the two row-blocks of the weight matrix and the bias
    as a one-row matrix: max ((Σ_k nf[n,k]·wa[k,j] + Σ_k ms[n,k]·wb[k,j]) + b2[0,j]) 0. -/
def nodeBlocksAt (nf : Mat 50000 64) (ms : Mat 50000 32) (wa : Mat 64 64) (wb : Mat 32 64) (b2 : Mat 1 64)
    (n : Fin 50000) (j : Fin 64) : EReal :=
  max ((∑ k : Fin 64, nf (ix2 n k) * wa (ix2 k j) + ∑ k : Fin 32, ms (ix2 n k) * wb (ix2 k j))
      + b2 (ix2 (0 : Fin 1) j)) zeroWord

/-- The new node features in that form. -/
def nodeBlocks (nf : Mat 50000 64) (ms : Mat 50000 32) (wa : Mat 64 64) (wb : Mat 32 64) (b2 : Mat 1 64) :
    Mat 50000 64 := fun i => nodeBlocksAt nf ms wa wb b2 (i 0) (i 1)

/-- Entry (n, j) from the whole weight matrix (rows 0–63 meet the node's own features, rows 64–95
    the summed messages) and the bias as a vector. -/
def nodeWholeAt (nf : Mat 50000 64) (ms : Mat 50000 32) (W : Mat 96 64) (b : Row 64)
    (n : Fin 50000) (j : Fin 64) : EReal :=
  max ((∑ k : Fin 64, nf (ix2 n k) * W (ix2 (⟨k.val, by have := k.isLt; omega⟩ : Fin 96) j)
        + ∑ k : Fin 32, ms (ix2 n k) * W (ix2 (⟨64 + k.val, by have := k.isLt; omega⟩ : Fin 96) j))
      + b (ix1 j)) zeroWord

/-- The new node features in that form. -/
def nodeWhole (nf : Mat 50000 64) (ms : Mat 50000 32) (W : Mat 96 64) (b : Row 64) : Mat 50000 64 :=
  fun i => nodeWholeAt nf ms W b (i 0) (i 1)

/-- If the two blocks are the row-blocks of W and the one-row matrix is b, the two forms agree. -/
theorem nodeBlocks_eq_nodeWhole (nf : Mat 50000 64) (ms : Mat 50000 32) (wa : Mat 64 64) (wb : Mat 32 64)
    (b2 : Mat 1 64) (W : Mat 96 64) (b : Row 64)
    (ha : ∀ (k : Fin 64) (j : Fin 64), wa (ix2 k j) = W (ix2 (⟨k.val, by have := k.isLt; omega⟩ : Fin 96) j))
    (hb : ∀ (k : Fin 32) (j : Fin 64), wb (ix2 k j) = W (ix2 (⟨64 + k.val, by have := k.isLt; omega⟩ : Fin 96) j))
    (hbias : ∀ j : Fin 64, b2 (ix2 (0 : Fin 1) j) = b (ix1 j)) :
    nodeBlocks nf ms wa wb b2 = nodeWhole nf ms W b := by
  have key : ∀ (n : Fin 50000) (j : Fin 64), nodeBlocksAt nf ms wa wb b2 n j = nodeWholeAt nf ms W b n j := by
    intro n j
    unfold nodeBlocksAt nodeWholeAt
    simp only [ha, hb, hbias]
  exact funext fun i => key (i 0) (i 1)

end Cert.MsgPass

end
-- ==== Proof.EdgeBody.lean ====
/-
  The edge kernel's body, read at one entry.  The body loads a block of 6400 edges: the gathered
  features of both endpoints (6400 × 64 each), the edges' own features (6400 × 32), three weight
  blocks and the bias row; it forms three matrix products into zero, adds them, adds the bias
  broadcast down the rows and takes the maximum with zero.  At the exact reading a change of float
  format is the identity and a matrix product into zero is the plain sum of products over the
  contracted axis, so entry (p, j) of the stored block is
  max (((Σ_k x0[p,k]·wa[k,j] + Σ_k x1[p,k]·wb[k,j]) + Σ_k xe[p,k]·wc[k,j]) + b[0,j]) 0.
-/
import proofs.«145678_j72026601554521_1_alg».proof.Proof.Gen.KernelIdeal.Skeleton
import proofs.«145678_j72026601554521_1_alg».proof.Proof.Spec
import Idealize.ShloMosaic.Lib.Pipeline.Value
import Idealize.ShloMosaic.Lib.ValueIdx
import Idealize.ShloMosaic.PureOps.Ideal.Laws

noncomputable section

namespace Cert.KernelIdeal.EdgeBody

open Idealize.ShloMosaic Idealize.ShloMosaic.ValueIdx Cert.KernelIdeal Cert.KernelIdeal.Gen Cert.MsgPass

/-! ## Where the two products read their operands -/

theorem mmNode_lhs_0 (i : S6400x32.Idx) (q : dot_S6400x64_S64x32_S6400x32_1_0_0_1_n_n.contr.Idx) :
    (dot_S6400x64_S64x32_S6400x32_1_0_0_1_n_n.lhsIdx i q 0).val = (i 0).val := by
  unfold DotDims.lhsIdx
  rw [dif_neg (show ¬(0 : Fin S6400x64.rank) ∈ dot_S6400x64_S64x32_S6400x32_1_0_0_1_n_n.lhsBatch by decide),
    dif_pos (show (0 : Fin S6400x64.rank) ∈ dot_S6400x64_S64x32_S6400x32_1_0_0_1_n_n.lhsNonContracting by decide)]
  rfl
theorem mmNode_lhs_1 (i : S6400x32.Idx) (q : dot_S6400x64_S64x32_S6400x32_1_0_0_1_n_n.contr.Idx) :
    (dot_S6400x64_S64x32_S6400x32_1_0_0_1_n_n.lhsIdx i q 1).val = (q ⟨0, by decide⟩).val :=
  dot_S6400x64_S64x32_S6400x32_1_0_0_1_n_n.lhsIdx_val_of_single rfl i q
theorem mmNode_rhs_0 (i : S6400x32.Idx) (q : dot_S6400x64_S64x32_S6400x32_1_0_0_1_n_n.contr.Idx) :
    (dot_S6400x64_S64x32_S6400x32_1_0_0_1_n_n.rhsIdx i q 0).val = (q ⟨0, by decide⟩).val :=
  dot_S6400x64_S64x32_S6400x32_1_0_0_1_n_n.rhsIdx_val_of_single rfl i q
theorem mmNode_rhs_1 (i : S6400x32.Idx) (q : dot_S6400x64_S64x32_S6400x32_1_0_0_1_n_n.contr.Idx) :
    (dot_S6400x64_S64x32_S6400x32_1_0_0_1_n_n.rhsIdx i q 1).val = (i 1).val := by
  unfold DotDims.rhsIdx
  rw [dif_neg (show ¬(1 : Fin S64x32.rank) ∈ dot_S6400x64_S64x32_S6400x32_1_0_0_1_n_n.rhsBatch by decide),
    dif_pos (show (1 : Fin S64x32.rank) ∈ dot_S6400x64_S64x32_S6400x32_1_0_0_1_n_n.rhsNonContracting by decide)]
  rfl

theorem mmEdge_lhs_0 (i : S6400x32.Idx) (q : dot_S6400x32_S32x32_S6400x32_1_0_0_1_n_n.contr.Idx) :
    (dot_S6400x32_S32x32_S6400x32_1_0_0_1_n_n.lhsIdx i q 0).val = (i 0).val := by
  unfold DotDims.lhsIdx
  rw [dif_neg (show ¬(0 : Fin S6400x32.rank) ∈ dot_S6400x32_S32x32_S6400x32_1_0_0_1_n_n.lhsBatch by decide),
    dif_pos (show (0 : Fin S6400x32.rank) ∈ dot_S6400x32_S32x32_S6400x32_1_0_0_1_n_n.lhsNonContracting by decide)]
  rfl
theorem mmEdge_lhs_1 (i : S6400x32.Idx) (q : dot_S6400x32_S32x32_S6400x32_1_0_0_1_n_n.contr.Idx) :
    (dot_S6400x32_S32x32_S6400x32_1_0_0_1_n_n.lhsIdx i q 1).val = (q ⟨0, by decide⟩).val :=
  dot_S6400x32_S32x32_S6400x32_1_0_0_1_n_n.lhsIdx_val_of_single rfl i q
theorem mmEdge_rhs_0 (i : S6400x32.Idx) (q : dot_S6400x32_S32x32_S6400x32_1_0_0_1_n_n.contr.Idx) :
    (dot_S6400x32_S32x32_S6400x32_1_0_0_1_n_n.rhsIdx i q 0).val = (q ⟨0, by decide⟩).val :=
  dot_S6400x32_S32x32_S6400x32_1_0_0_1_n_n.rhsIdx_val_of_single rfl i q
theorem mmEdge_rhs_1 (i : S6400x32.Idx) (q : dot_S6400x32_S32x32_S6400x32_1_0_0_1_n_n.contr.Idx) :
    (dot_S6400x32_S32x32_S6400x32_1_0_0_1_n_n.rhsIdx i q 1).val = (i 1).val := by
  unfold DotDims.rhsIdx
  rw [dif_neg (show ¬(1 : Fin S32x32.rank) ∈ dot_S6400x32_S32x32_S6400x32_1_0_0_1_n_n.rhsBatch by decide),
    dif_pos (show (1 : Fin S32x32.rank) ∈ dot_S6400x32_S32x32_S6400x32_1_0_0_1_n_n.rhsNonContracting by decide)]
  rfl

/-! ## The products at an entry -/

/-- A 6400 × 64 by 64 × 32 product into zero, at entry (p, j): the sum over the 64 contracted positions. -/
theorem mmNode_at (l : FVec Ideal S6400x64 .bf16) (r : FVec Ideal S64x32 .bf16) (p : Fin 6400) (j : Fin 32) :
    matmul dot_S6400x64_S64x32_S6400x32_1_0_0_1_n_n none l r (constant (F := Ideal) S6400x32 .f32 0x00000000#32) (ix2 p j)
      = ∑ k : Fin 64, l (ix2 p k) * r (ix2 k j) := by
  simp only [matmul]
  rw [Ideal.matmul_constant_zero_apply,
    ← Equiv.sum_comp (ValueIdx.contrEquiv1 dot_S6400x64_S64x32_S6400x32_1_0_0_1_n_n 64 rfl rfl).symm]
  refine Finset.sum_congr rfl fun k _ => ?_
  have hk := ValueIdx.contrEquiv1_symm_val dot_S6400x64_S64x32_S6400x32_1_0_0_1_n_n 64 rfl rfl k
  have el : dot_S6400x64_S64x32_S6400x32_1_0_0_1_n_n.lhsIdx (ix2 p j)
      ((ValueIdx.contrEquiv1 dot_S6400x64_S64x32_S6400x32_1_0_0_1_n_n 64 rfl rfl).symm k) = ix2 p k :=
    funext fun a => Fin.ext (by
      match a with
      | ⟨0, _⟩ => exact mmNode_lhs_0 _ _
      | ⟨1, _⟩ => exact (mmNode_lhs_1 _ _).trans hk)
  have er : dot_S6400x64_S64x32_S6400x32_1_0_0_1_n_n.rhsIdx (ix2 p j)
      ((ValueIdx.contrEquiv1 dot_S6400x64_S64x32_S6400x32_1_0_0_1_n_n 64 rfl rfl).symm k) = ix2 k j :=
    funext fun a => Fin.ext (by
      match a with
      | ⟨0, _⟩ => exact (mmNode_rhs_0 _ _).trans hk
      | ⟨1, _⟩ => exact mmNode_rhs_1 _ _)
  rw [el, er]

/-- A 6400 × 32 by 32 × 32 product into zero, at entry (p, j): the sum over the 32 contracted positions. -/
theorem mmEdge_at (l : FVec Ideal S6400x32 .bf16) (r : FVec Ideal S32x32 .bf16) (p : Fin 6400) (j : Fin 32) :
    matmul dot_S6400x32_S32x32_S6400x32_1_0_0_1_n_n none l r (constant (F := Ideal) S6400x32 .f32 0x00000000#32) (ix2 p j)
      = ∑ k : Fin 32, l (ix2 p k) * r (ix2 k j) := by
  simp only [matmul]
  rw [Ideal.matmul_constant_zero_apply,
    ← Equiv.sum_comp (ValueIdx.contrEquiv1 dot_S6400x32_S32x32_S6400x32_1_0_0_1_n_n 32 rfl rfl).symm]
  refine Finset.sum_congr rfl fun k _ => ?_
  have hk := ValueIdx.contrEquiv1_symm_val dot_S6400x32_S32x32_S6400x32_1_0_0_1_n_n 32 rfl rfl k
  have el : dot_S6400x32_S32x32_S6400x32_1_0_0_1_n_n.lhsIdx (ix2 p j)
      ((ValueIdx.contrEquiv1 dot_S6400x32_S32x32_S6400x32_1_0_0_1_n_n 32 rfl rfl).symm k) = ix2 p k :=
    funext fun a => Fin.ext (by
      match a with
      | ⟨0, _⟩ => exact mmEdge_lhs_0 _ _
      | ⟨1, _⟩ => exact (mmEdge_lhs_1 _ _).trans hk)
  have er : dot_S6400x32_S32x32_S6400x32_1_0_0_1_n_n.rhsIdx (ix2 p j)
      ((ValueIdx.contrEquiv1 dot_S6400x32_S32x32_S6400x32_1_0_0_1_n_n 32 rfl rfl).symm k) = ix2 k j :=
    funext fun a => Fin.ext (by
      match a with
      | ⟨0, _⟩ => exact (mmEdge_rhs_0 _ _).trans hk
      | ⟨1, _⟩ => exact mmEdge_rhs_1 _ _)
  rw [el, er]

/-! ## The stored block at an entry -/

/-- Entry (p, j) of what the body stores, from the blocks it loaded. -/
theorem stored_at (x0 x1 : Vec Ideal S6400x64 .f32) (x2 : Vec Ideal S6400x32 .f32) (x3 x4 : Vec Ideal S64x32 .f32)
    (x5 : Vec Ideal S32x32 .f32) (x6 : Vec Ideal S1x32 .f32) (p : Fin 6400) (j : Fin 32) :
    k0_pay1 (F := Ideal) x0 x1 x2 x3 x4 x5 x6 (ix2 p j)
      = max (((∑ k : Fin 64, x0 (ix2 p k) * x3 (ix2 k j) + ∑ k : Fin 64, x1 (ix2 p k) * x4 (ix2 k j))
          + ∑ k : Fin 32, x2 (ix2 p k) * x5 (ix2 k j)) + x6 (ix2 (0 : Fin 1) j)) zeroWord := by
  unfold k0_pay1
  simp only [shapeCast_self]
  refine congrArg₂ max (congrArg₂ (· + ·) (congrArg₂ (· + ·) (congrArg₂ (· + ·) ?_ ?_) ?_) ?_) rfl
  · exact mmNode_at _ _ p j
  · exact mmNode_at _ _ p j
  · exact mmEdge_at _ _ p j
  · exact broadcastTo_apply x6 broadcasts_S1x32_S6400x32 (ix2 p j) (ix2 (0 : Fin 1) j) (fun a => by
      match a with
      | ⟨0, _⟩ => rfl
      | ⟨1, _⟩ => rfl)

/-- If the loaded blocks hold row e of the three edge-indexed arrays in their row p, and the weight
    blocks and the bias row are the given matrices, then entry (p, j) of what the body stores is
    entry (e, j) of the message array. -/
theorem stored_eq_edgeBlocksAt (g0 g1 : Mat 1600000 64) (xe : Mat 1600000 32) (wa wb : Mat 64 32) (wc : Mat 32 32)
    (b2 : Mat 1 32) (x0 x1 : Vec Ideal S6400x64 .f32) (x2 : Vec Ideal S6400x32 .f32) (x3 x4 : Vec Ideal S64x32 .f32)
    (x5 : Vec Ideal S32x32 .f32) (x6 : Vec Ideal S1x32 .f32) (p : Fin 6400) (j : Fin 32) (e : Fin 1600000)
    (h0 : ∀ k : Fin 64, x0 (ix2 p k) = g0 (ix2 e k)) (h1 : ∀ k : Fin 64, x1 (ix2 p k) = g1 (ix2 e k))
    (h2 : ∀ k : Fin 32, x2 (ix2 p k) = xe (ix2 e k))
    (h3 : ∀ k : Fin 64, x3 (ix2 k j) = wa (ix2 k j)) (h4 : ∀ k : Fin 64, x4 (ix2 k j) = wb (ix2 k j))
    (h5 : ∀ k : Fin 32, x5 (ix2 k j) = wc (ix2 k j)) (h6 : x6 (ix2 (0 : Fin 1) j) = b2 (ix2 (0 : Fin 1) j)) :
    k0_pay1 (F := Ideal) x0 x1 x2 x3 x4 x5 x6 (ix2 p j) = edgeBlocksAt g0 g1 xe wa wb wc b2 e j := by
  rw [stored_at]
  unfold edgeBlocksAt
  simp only [h0, h1, h2, h3, h4, h5, h6]

end Cert.KernelIdeal.EdgeBody

end
-- ==== Proof.EdgeRegion.lean ====
/-
  The edge kernel over its whole grid.  The 1 600 000 edges are cut into 250 blocks of 6400; at
  block t the kernel reads rows 6400·t … 6400·t + 6399 of the two gathered endpoint arrays and of
  the edge features, the three weight blocks and the bias row whole, and writes rows
  6400·t … 6400·t + 6399 of the messages.  The 250 blocks tile the message array, so after the
  last block the array is the message function of the arrays the kernel was entered with.
  Everything is stated at a parameter V: the contents of the buffers when the kernel is entered.
-/
import proofs.«145678_j72026601554521_1_alg».proof.Proof.Gen.KernelIdeal.Frame
import proofs.«145678_j72026601554521_1_alg».proof.Proof.EdgeBody
import Idealize.ShloMosaic.Lib.Pipeline.Value

set_option maxRecDepth 16384

noncomputable section

namespace Cert.KernelIdeal.EdgeRegion

open Idealize.ShloMosaic Idealize.ShloMosaic.TcCoe Idealize.ShloMosaic.ValueIdx Idealize.SL.Sem
open Cert.KernelIdeal Cert.KernelIdeal.Gen Cert.MsgPass
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The block indices at grid point t: the three edge-indexed inputs and the output take block t of
    their rows, the weights and the bias their only block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of block t is row 6400·t + p of an edge-indexed array. -/
def edgeRow (t : Fin cfg0.N) (p : Fin 6400) : Fin 1600000 :=
  ⟨t.val * 6400 + p.val, by have ht : t.val < 250 := t.isLt; have := p.isLt; omega⟩

/-! ## What each loaded block holds -/

theorem block0 (c : Dev nD) (t : Fin cfg0.N) (p : Fin 6400) (k : Fin 64) :
    iblk0 V c 0 t (ix2 p k) = V c main_v10 (ix2 (edgeRow t p) k) := by
  obtain ⟨e0, e1, -⟩ := block_index t
  show V c main_v10 (((cfg0.win 0).blk t).view.emb (ix2 p k)) = V c main_v10 (ix2 (edgeRow t p) k)
  refine congrArg (V c main_v10) (funext fun a => Fin.ext ?_)
  match a with
  | ⟨0, _⟩ => show win0_0.index t (0 : Fin 2) * 6400 + 1 * p.val = t.val * 6400 + p.val; rw [e0]; omega
  | ⟨1, _⟩ => show win0_0.index t (1 : Fin 2) * 64 + 1 * k.val = k.val; rw [e1]; omega

theorem block1 (c : Dev nD) (t : Fin cfg0.N) (p : Fin 6400) (k : Fin 64) :
    iblk0 V c 1 t (ix2 p k) = V c main_v17 (ix2 (edgeRow t p) k) := by
  obtain ⟨-, -, e0, e1, -⟩ := block_index t
  show V c main_v17 (((cfg0.win 1).blk t).view.emb (ix2 p k)) = V c main_v17 (ix2 (edgeRow t p) k)
  refine congrArg (V c main_v17) (funext fun a => Fin.ext ?_)
  match a with
  | ⟨0, _⟩ => show win0_1.index t (0 : Fin 2) * 6400 + 1 * p.val = t.val * 6400 + p.val; rw [e0]; omega
  | ⟨1, _⟩ => show win0_1.index t (1 : Fin 2) * 64 + 1 * k.val = k.val; rw [e1]; omega

theorem block2 (c : Dev nD) (t : Fin cfg0.N) (p : Fin 6400) (k : Fin 32) :
    iblk0 V c 2 t (ix2 p k) = V c main_arg2 (ix2 (edgeRow t p) k) := by
  obtain ⟨-, -, -, -, e0, e1, -⟩ := block_index t
  show V c main_arg2 (((cfg0.win 2).blk t).view.emb (ix2 p k)) = V c main_arg2 (ix2 (edgeRow t p) k)
  refine congrArg (V c main_arg2) (funext fun a => Fin.ext ?_)
  match a with
  | ⟨0, _⟩ => show win0_2.index t (0 : Fin 2) * 6400 + 1 * p.val = t.val * 6400 + p.val; rw [e0]; omega
  | ⟨1, _⟩ => show win0_2.index t (1 : Fin 2) * 32 + 1 * k.val = k.val; rw [e1]; omega

theorem block3 (c : Dev nD) (t : Fin cfg0.N) (k : Fin 64) (j : Fin 32) :
    iblk0 V c 3 t (ix2 k j) = V c main_v18 (ix2 k j) := by
  obtain ⟨-, -, -, -, -, -, e0, e1, -⟩ := block_index t
  show V c main_v18 (((cfg0.win 3).blk t).view.emb (ix2 k j)) = V c main_v18 (ix2 k j)
  refine congrArg (V c main_v18) (funext fun a => Fin.ext ?_)
  match a with
  | ⟨0, _⟩ => show win0_3.index t (0 : Fin 2) * 64 + 1 * k.val = k.val; rw [e0]; omega
  | ⟨1, _⟩ => show win0_3.index t (1 : Fin 2) * 32 + 1 * j.val = j.val; rw [e1]; omega

theorem block4 (c : Dev nD) (t : Fin cfg0.N) (k : Fin 64) (j : Fin 32) :
    iblk0 V c 4 t (ix2 k j) = V c main_v19 (ix2 k j) := by
  obtain ⟨-, -, -, -, -, -, -, -, e0, e1, -⟩ := block_index t
  show V c main_v19 (((cfg0.win 4).blk t).view.emb (ix2 k j)) = V c main_v19 (ix2 k j)
  refine congrArg (V c main_v19) (funext fun a => Fin.ext ?_)
  match a with
  | ⟨0, _⟩ => show win0_4.index t (0 : Fin 2) * 64 + 1 * k.val = k.val; rw [e0]; omega
  | ⟨1, _⟩ => show win0_4.index t (1 : Fin 2) * 32 + 1 * j.val = j.val; rw [e1]; omega

theorem block5 (c : Dev nD) (t : Fin cfg0.N) (k : Fin 32) (j : Fin 32) :
    iblk0 V c 5 t (ix2 k j) = V c main_v20 (ix2 k j) := by
  obtain ⟨-, -, -, -, -, -, -, -, -, -, e0, e1, -⟩ := block_index t
  show V c main_v20 (((cfg0.win 5).blk t).view.emb (ix2 k j)) = V c main_v20 (ix2 k j)
  refine congrArg (V c main_v20) (funext fun a => Fin.ext ?_)
  match a with
  | ⟨0, _⟩ => show win0_5.index t (0 : Fin 2) * 32 + 1 * k.val = k.val; rw [e0]; omega
  | ⟨1, _⟩ => show win0_5.index t (1 : Fin 2) * 32 + 1 * j.val = j.val; rw [e1]; omega

theorem block6 (c : Dev nD) (t : Fin cfg0.N) (j : Fin 32) :
    iblk0 V c 6 t (ix2 (0 : Fin 1) j) = V c main_v21 (ix2 (0 : Fin 1) j) := by
  obtain ⟨-, -, -, -, -, -, -, -, -, -, -, -, e0, e1, -⟩ := block_index t
  show V c main_v21 (((cfg0.win 6).blk t).view.emb (ix2 (0 : Fin 1) j)) = V c main_v21 (ix2 (0 : Fin 1) j)
  refine congrArg (V c main_v21) (funext fun a => Fin.ext ?_)
  match a with
  | ⟨0, _⟩ => show win0_6.index t (0 : Fin 2) * 1 + 1 * 0 = 0; rw [e0]
  | ⟨1, _⟩ => show win0_6.index t (1 : Fin 2) * 32 + 1 * j.val = j.val; rw [e1]; omega

/-! ## What grid point t writes back -/

/-- The message array of the arrays the kernel was entered with. -/
abbrev messages (c : Dev nD) : Mat 1600000 32 :=
  edgeBlocks (V c main_v10) (V c main_v17) (V c main_arg2) (V c main_v18) (V c main_v19) (V c main_v20) (V c main_v21)

/-- Point t writes back block t of the message array. -/
theorem flushed_eq (c : Dev nD) (t : Fin cfg0.N) :
    (dat0 V c).flushed 7 t = ((cfg0.win 7).blk t).view.read (Elt Ideal) (messages V c) := by
  show (cfg0.win 7).cut (grid0.coords t) ((dat0 V c).after 7 t) = _
  rw [after0_7]
  unfold out0_7
  rw [View.canon_unit_zero origin]
  simp only [View.ld_unit_zero (S := S6400x64) origin, View.ld_unit_zero (S := S6400x32) origin,
    View.ld_unit_zero (S := S64x32) origin, View.ld_unit_zero (S := S32x32) origin, View.ld_unit_zero (S := S1x32) origin]
  funext y
  obtain ⟨p, j, rfl⟩ : ∃ (p : Fin 6400) (j : Fin 32), (y : S6400x32.Idx) = ix2 p j := ⟨y 0, y 1, eq_ix2 _⟩
  obtain ⟨-, -, -, -, -, -, -, -, -, -, -, -, -, -, e0, e1⟩ := block_index t
  have hrow : (⟨win0_7.index t (0 : Fin 2) * 6400 + 1 * p.val, by rw [e0]; have ht : t.val < 250 := t.isLt; have := p.isLt; omega⟩ : Fin 1600000)
      = edgeRow t p := Fin.ext (by show win0_7.index t (0 : Fin 2) * 6400 + 1 * p.val = t.val * 6400 + p.val; rw [e0]; omega)
  have hcol : (⟨win0_7.index t (1 : Fin 2) * 32 + 1 * j.val, by rw [e1]; have := j.isLt; omega⟩ : Fin 32) = j :=
    Fin.ext (by show win0_7.index t (1 : Fin 2) * 32 + 1 * j.val = j.val; rw [e1]; omega)
  show k0_pay1 (F := Ideal) (iblk0 V c 0 t) (iblk0 V c 1 t) (iblk0 V c 2 t) (iblk0 V c 3 t) (iblk0 V c 4 t) (iblk0 V c 5 t)
        (iblk0 V c 6 t) (ix2 p j)
      = edgeBlocksAt (V c main_v10) (V c main_v17) (V c main_arg2) (V c main_v18) (V c main_v19) (V c main_v20) (V c main_v21)
          (⟨win0_7.index t (0 : Fin 2) * 6400 + 1 * p.val, by rw [e0]; have ht : t.val < 250 := t.isLt; have := p.isLt; omega⟩ : Fin 1600000)
          (⟨win0_7.index t (1 : Fin 2) * 32 + 1 * j.val, by rw [e1]; have := j.isLt; omega⟩ : Fin 32)
  rw [hrow, hcol]
  exact EdgeBody.stored_eq_edgeBlocksAt (V c main_v10) (V c main_v17) (V c main_arg2) (V c main_v18) (V c main_v19)
    (V c main_v20) (V c main_v21) (iblk0 V c 0 t) (iblk0 V c 1 t) (iblk0 V c 2 t) (iblk0 V c 3 t) (iblk0 V c 4 t)
    (iblk0 V c 5 t) (iblk0 V c 6 t) p j (edgeRow t p)
    (fun k => block0 V c t p k) (fun k => block1 V c t p k) (fun k => block2 V c t p k)
    (fun k => block3 V c t k j) (fun k => block4 V c t k j) (fun k => block5 V c t k j) (block6 V c t j)

/-! ## The blocks tile the array -/

theorem mem_block (t : Fin cfg0.N) (i : S1600000x32.Idx) :
    i ∈ ((cfg0.win 7).blk t).view.set ↔ ∀ a : Fin 2, win0_7.index t a * S6400x32.size a ≤ (i a).val
      ∧ (i a).val < win0_7.index t a * S6400x32.size a + S6400x32.size a := by
  show i ∈ ((View.whole main_v22).slice (win0_7.rect t)).set ↔ _
  rw [View.set_slice_whole, Rect.mem_set_unit]
  exact Iff.rfl

/-- Every entry of the message array lies in the block of the point its row falls in. -/
theorem cover (i : S1600000x32.Idx) :
    ∃ t : Fin cfg0.N, (cfg0.win 7).flush t = true ∧ i ∈ ((cfg0.win 7).blk t).view.set := by
  have hi0 : (i 0).val < 1600000 := (i 0).isLt
  have hi1 : (i 1).val < 32 := (i 1).isLt
  let t : Fin cfg0.N := ⟨(i 0).val / 6400, by show (i 0).val / 6400 < 250; omega⟩
  obtain ⟨-, -, -, -, -, -, -, -, -, -, -, -, -, -, e0, e1⟩ := block_index t
  refine ⟨t, flush0_7 t, ?_⟩
  rw [mem_block]
  intro a
  match a with
  | ⟨0, _⟩ =>
    show win0_7.index t (0 : Fin 2) * 6400 ≤ (i 0).val ∧ (i 0).val < win0_7.index t (0 : Fin 2) * 6400 + 6400
    rw [e0]; show (i 0).val / 6400 * 6400 ≤ (i 0).val ∧ (i 0).val < (i 0).val / 6400 * 6400 + 6400; omega
  | ⟨1, _⟩ =>
    show win0_7.index t (1 : Fin 2) * 32 ≤ (i 1).val ∧ (i 1).val < win0_7.index t (1 : Fin 2) * 32 + 32
    rw [e1]; omega

/-! ## The message array after the last block -/

/-- After its 250 points the kernel's output array is the message array of the arrays it was entered with. -/
theorem array_eq (c : Dev nD) : (dat0 V c).arrAt 7 cfg0.N = messages V c :=
  (dat0 V c).arrAt_eq_of_cover 7 (messages V c) (fun t _ => flushed_eq V c t) cover

end Cert.KernelIdeal.EdgeRegion

end
-- ==== Proof.NodeBody.lean ====
/-
  The node kernel's body, read at one entry.  The body loads a block of 5000 nodes: their own
  features (5000 × 64), the messages summed onto them (5000 × 32), two weight blocks and the bias
  row; it forms two matrix products into zero, adds them, adds the bias broadcast down the rows and
  takes the maximum with zero.  At the exact reading a change of float format is the identity and a
  matrix product into zero is the plain sum of products over the contracted axis, so entry (p, j)
  of the stored block is max ((Σ_k nf[p,k]·wa[k,j] + Σ_k ms[p,k]·wb[k,j]) + b[0,j]) 0.
-/
import proofs.«145678_j72026601554521_1_alg».proof.Proof.Gen.KernelIdeal.Skeleton
import proofs.«145678_j72026601554521_1_alg».proof.Proof.Spec
import Idealize.ShloMosaic.Lib.Pipeline.Value
import Idealize.ShloMosaic.Lib.ValueIdx
import Idealize.ShloMosaic.PureOps.Ideal.Laws

noncomputable section

namespace Cert.KernelIdeal.NodeBody

open Idealize.ShloMosaic Idealize.ShloMosaic.ValueIdx Cert.KernelIdeal Cert.KernelIdeal.Gen Cert.MsgPass

/-! ## Where the two products read their operands -/

theorem mmOwn_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem mmOwn_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem mmOwn_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem mmOwn_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

theorem mmMsg_lhs_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide),
    dif_pos (show (0 : Fin S5000x32.rank) ∈ dot_S5000x32_S32x64_S5000x64_1_0_0_1_n_n.lhsNonContracting by decide)]
  rfl
theorem mmMsg_lhs_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem mmMsg_rhs_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem mmMsg_rhs_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide),
    dif_pos (show (1 : Fin S32x64.rank) ∈ dot_S5000x32_S32x64_S5000x64_1_0_0_1_n_n.rhsNonContracting by decide)]
  rfl

/-! ## The products at an entry -/

/-- A 5000 × 64 by 64 × 64 product into zero, at entry (p, j): the sum over the 64 contracted positions. -/
theorem mmOwn_at (l : FVec Ideal S5000x64 .bf16) (r : FVec Ideal S64x64 .bf16) (p : Fin 5000) (j : Fin 64) :
    matmul dot_S5000x64_S64x64_S5000x64_1_0_0_1_n_n none l r (constant (F := Ideal) S5000x64 .f32 0x00000000#32) (ix2 p j)
      = ∑ k : Fin 64, l (ix2 p k) * r (ix2 k j) := by
  simp only [matmul]
  rw [Ideal.matmul_constant_zero_apply,
    ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p j)
      ((ValueIdx.contrEquiv1 dot_S5000x64_S64x64_S5000x64_1_0_0_1_n_n 64 rfl rfl).symm k) = ix2 p k :=
    funext fun a => Fin.ext (by
      match a with
      | ⟨0, _⟩ => exact mmOwn_lhs_0 _ _
      | ⟨1, _⟩ => exact (mmOwn_lhs_1 _ _).trans hk)
  have er : dot_S5000x64_S64x64_S5000x64_1_0_0_1_n_n.rhsIdx (ix2 p j)
      ((ValueIdx.contrEquiv1 dot_S5000x64_S64x64_S5000x64_1_0_0_1_n_n 64 rfl rfl).symm k) = ix2 k j :=
    funext fun a => Fin.ext (by
      match a with
      | ⟨0, _⟩ => exact (mmOwn_rhs_0 _ _).trans hk
      | ⟨1, _⟩ => exact mmOwn_rhs_1 _ _)
  rw [el, er]

/-- A 5000 × 32 by 32 × 64 product into zero, at entry (p, j): the sum over the 32 contracted positions. -/
theorem mmMsg_at (l : FVec Ideal S5000x32 .bf16) (r : FVec Ideal S32x64 .bf16) (p : Fin 5000) (j : Fin 64) :
    matmul dot_S5000x32_S32x64_S5000x64_1_0_0_1_n_n none l r (constant (F := Ideal) S5000x64 .f32 0x00000000#32) (ix2 p j)
      = ∑ k : Fin 32, l (ix2 p k) * r (ix2 k j) := by
  simp only [matmul]
  rw [Ideal.matmul_constant_zero_apply,
    ← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx (ix2 p j)
      ((ValueIdx.contrEquiv1 dot_S5000x32_S32x64_S5000x64_1_0_0_1_n_n 32 rfl rfl).symm k) = ix2 p k :=
    funext fun a => Fin.ext (by
      match a with
      | ⟨0, _⟩ => exact mmMsg_lhs_0 _ _
      | ⟨1, _⟩ => exact (mmMsg_lhs_1 _ _).trans hk)
  have er : dot_S5000x32_S32x64_S5000x64_1_0_0_1_n_n.rhsIdx (ix2 p j)
      ((ValueIdx.contrEquiv1 dot_S5000x32_S32x64_S5000x64_1_0_0_1_n_n 32 rfl rfl).symm k) = ix2 k j :=
    funext fun a => Fin.ext (by
      match a with
      | ⟨0, _⟩ => exact (mmMsg_rhs_0 _ _).trans hk
      | ⟨1, _⟩ => exact mmMsg_rhs_1 _ _)
  rw [el, er]

/-! ## The stored block at an entry -/

/-- Entry (p, j) of what the body stores, from the blocks it loaded. -/
theorem stored_at (x0 : Vec Ideal S5000x64 .f32) (x1 : Vec Ideal S5000x32 .f32) (x2 : Vec Ideal S64x64 .f32)
    (x3 : Vec Ideal S32x64 .f32) (x4 : Vec Ideal S1x64 .f32) (p : Fin 5000) (j : Fin 64) :
    k1_pay1 (F := Ideal) x0 x1 x2 x3 x4 (ix2 p j)
      = max ((∑ k : Fin 64, x0 (ix2 p k) * x2 (ix2 k j) + ∑ k : Fin 32, x1 (ix2 p k) * x3 (ix2 k j))
          + x4 (ix2 (0 : Fin 1) j)) zeroWord := by
  unfold k1_pay1
  simp only [shapeCast_self]
  refine congrArg₂ max (congrArg₂ (· + ·) (congrArg₂ (· + ·) ?_ ?_) ?_) rfl
  · exact mmOwn_at _ _ p j
  · exact mmMsg_at _ _ p j
  · exact broadcastTo_apply x4 broadcasts_S1x64_S5000x64 (ix2 p j) (ix2 (0 : Fin 1) j) (fun a => by
      match a with
      | ⟨0, _⟩ => rfl
      | ⟨1, _⟩ => rfl)

/-- If the loaded blocks hold row n of the two node-indexed arrays in their row p, and the weight
    blocks and the bias row are the given matrices, then entry (p, j) of what the body stores is
    entry (n, j) of the new node features. -/
theorem stored_eq_nodeBlocksAt (nf : Mat 50000 64) (ms : Mat 50000 32) (wa : Mat 64 64) (wb : Mat 32 64) (b2 : Mat 1 64)
    (x0 : Vec Ideal S5000x64 .f32) (x1 : Vec Ideal S5000x32 .f32) (x2 : Vec Ideal S64x64 .f32)
    (x3 : Vec Ideal S32x64 .f32) (x4 : Vec Ideal S1x64 .f32) (p : Fin 5000) (j : Fin 64) (n : Fin 50000)
    (h0 : ∀ k : Fin 64, x0 (ix2 p k) = nf (ix2 n k)) (h1 : ∀ k : Fin 32, x1 (ix2 p k) = ms (ix2 n k))
    (h2 : ∀ k : Fin 64, x2 (ix2 k j) = wa (ix2 k j)) (h3 : ∀ k : Fin 32, x3 (ix2 k j) = wb (ix2 k j))
    (h4 : x4 (ix2 (0 : Fin 1) j) = b2 (ix2 (0 : Fin 1) j)) :
    k1_pay1 (F := Ideal) x0 x1 x2 x3 x4 (ix2 p j) = nodeBlocksAt nf ms wa wb b2 n j := by
  rw [stored_at]
  unfold nodeBlocksAt
  simp only [h0, h1, h2, h3, h4]

end Cert.KernelIdeal.NodeBody

end
-- ==== Proof.NodeRegion.lean ====
/-
  The node kernel over its whole grid.  The 50 000 nodes are cut into 10 blocks of 5000; at block t
  the kernel reads rows 5000·t … 5000·t + 4999 of the node features and of the summed messages, the
  two weight blocks and the bias row whole, and writes rows 5000·t … 5000·t + 4999 of the new node
  features.  The 10 blocks tile the output array, so after the last block the array is the node
  function of the arrays the kernel was entered with.  Everything is stated at a parameter V: the
  contents of the buffers when the kernel is entered.
-/
import proofs.«145678_j72026601554521_1_alg».proof.Proof.Gen.KernelIdeal.Frame
import proofs.«145678_j72026601554521_1_alg».proof.Proof.NodeBody
import Idealize.ShloMosaic.Lib.Pipeline.Value

set_option maxRecDepth 16384

noncomputable section

namespace Cert.KernelIdeal.NodeRegion

open Idealize.ShloMosaic Idealize.ShloMosaic.TcCoe Idealize.ShloMosaic.ValueIdx Idealize.SL.Sem
open Cert.KernelIdeal Cert.KernelIdeal.Gen Cert.MsgPass
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The block indices at grid point t: the two node-indexed inputs and the output take block t of
    their rows, the weights and the bias their only block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is row 5000·t + p of a node-indexed array. -/
def nodeRow (t : Fin cfg1.N) (p : Fin 5000) : Fin 50000 :=
  ⟨t.val * 5000 + p.val, by have ht : t.val < 10 := t.isLt; have := p.isLt; omega⟩

/-! ## What each loaded block holds -/

theorem block0 (c : Dev nD) (t : Fin cfg1.N) (p : Fin 5000) (k : Fin 64) :
    iblk1 V c 0 t (ix2 p k) = V c main_arg0 (ix2 (nodeRow t p) k) := by
  obtain ⟨e0, e1, -⟩ := block_index t
  show V c main_arg0 (((cfg1.win 0).blk t).view.emb (ix2 p k)) = V c main_arg0 (ix2 (nodeRow t p) k)
  refine congrArg (V c main_arg0) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

theorem block1 (c : Dev nD) (t : Fin cfg1.N) (p : Fin 5000) (k : Fin 32) :
    iblk1 V c 1 t (ix2 p k) = V c main_v25 (ix2 (nodeRow t p) k) := by
  obtain ⟨-, -, e0, e1, -⟩ := block_index t
  show V c main_v25 (((cfg1.win 1).blk t).view.emb (ix2 p k)) = V c main_v25 (ix2 (nodeRow t p) k)
  refine congrArg (V c main_v25) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 32 + 1 * k.val = k.val; rw [e1]; omega

theorem block2 (c : Dev nD) (t : Fin cfg1.N) (k : Fin 64) (j : Fin 64) :
    iblk1 V c 2 t (ix2 k j) = V c main_v26 (ix2 k j) := by
  obtain ⟨-, -, -, -, e0, e1, -⟩ := block_index t
  show V c main_v26 (((cfg1.win 2).blk t).view.emb (ix2 k j)) = V c main_v26 (ix2 k j)
  refine congrArg (V c main_v26) (funext fun a => Fin.ext ?_)
  match a with
  | ⟨0, _⟩ => show win1_2.index t (0 : Fin 2) * 64 + 1 * k.val = k.val; rw [e0]; omega
  | ⟨1, _⟩ => show win1_2.index t (1 : Fin 2) * 64 + 1 * j.val = j.val; rw [e1]; omega

theorem block3 (c : Dev nD) (t : Fin cfg1.N) (k : Fin 32) (j : Fin 64) :
    iblk1 V c 3 t (ix2 k j) = V c main_v27 (ix2 k j) := by
  obtain ⟨-, -, -, -, -, -, e0, e1, -⟩ := block_index t
  show V c main_v27 (((cfg1.win 3).blk t).view.emb (ix2 k j)) = V c main_v27 (ix2 k j)
  refine congrArg (V c main_v27) (funext fun a => Fin.ext ?_)
  match a with
  | ⟨0, _⟩ => show win1_3.index t (0 : Fin 2) * 32 + 1 * k.val = k.val; rw [e0]; omega
  | ⟨1, _⟩ => show win1_3.index t (1 : Fin 2) * 64 + 1 * j.val = j.val; rw [e1]; omega

theorem block4 (c : Dev nD) (t : Fin cfg1.N) (j : Fin 64) :
    iblk1 V c 4 t (ix2 (0 : Fin 1) j) = V c main_v28 (ix2 (0 : Fin 1) j) := by
  obtain ⟨-, -, -, -, -, -, -, -, e0, e1, -⟩ := block_index t
  show V c main_v28 (((cfg1.win 4).blk t).view.emb (ix2 (0 : Fin 1) j)) = V c main_v28 (ix2 (0 : Fin 1) j)
  refine congrArg (V c main_v28) (funext fun a => Fin.ext ?_)
  match a with
  | ⟨0, _⟩ => show win1_4.index t (0 : Fin 2) * 1 + 1 * 0 = 0; rw [e0]
  | ⟨1, _⟩ => show win1_4.index t (1 : Fin 2) * 64 + 1 * j.val = j.val; rw [e1]; omega

/-! ## What grid point t writes back -/

/-- The new node features of the arrays the kernel was entered with. -/
abbrev updated (c : Dev nD) : Mat 50000 64 :=
  nodeBlocks (V c main_arg0) (V c main_v25) (V c main_v26) (V c main_v27) (V c main_v28)

/-- Point t writes back block t of the new node features. -/
theorem flushed_eq (c : Dev nD) (t : Fin cfg1.N) :
    (dat1 V c).flushed 5 t = ((cfg1.win 5).blk t).view.read (Elt Ideal) (updated V c) := by
  show (cfg1.win 5).cut (grid1.coords t) ((dat1 V c).after 5 t) = _
  rw [after1_5]
  unfold out1_5
  rw [View.canon_unit_zero origin]
  simp only [View.ld_unit_zero (S := S5000x64) origin, View.ld_unit_zero (S := S5000x32) origin,
    View.ld_unit_zero (S := S64x64) origin, View.ld_unit_zero (S := S32x64) origin, View.ld_unit_zero (S := S1x64) origin]
  funext y
  obtain ⟨p, j, rfl⟩ : ∃ (p : Fin 5000) (j : Fin 64), (y : S5000x64.Idx) = ix2 p j := ⟨y 0, y 1, eq_ix2 _⟩
  obtain ⟨-, -, -, -, -, -, -, -, -, -, e0, e1⟩ := block_index t
  have hrow : (⟨win1_5.index t (0 : Fin 2) * 5000 + 1 * p.val, by rw [e0]; have ht : t.val < 10 := t.isLt; have := p.isLt; omega⟩ : Fin 50000)
      = nodeRow t p := Fin.ext (by show win1_5.index t (0 : Fin 2) * 5000 + 1 * p.val = t.val * 5000 + p.val; rw [e0]; omega)
  have hcol : (⟨win1_5.index t (1 : Fin 2) * 64 + 1 * j.val, by rw [e1]; have := j.isLt; omega⟩ : Fin 64) = j :=
    Fin.ext (by show win1_5.index t (1 : Fin 2) * 64 + 1 * j.val = j.val; rw [e1]; omega)
  show k1_pay1 (F := Ideal) (iblk1 V c 0 t) (iblk1 V c 1 t) (iblk1 V c 2 t) (iblk1 V c 3 t) (iblk1 V c 4 t) (ix2 p j)
      = nodeBlocksAt (V c main_arg0) (V c main_v25) (V c main_v26) (V c main_v27) (V c main_v28)
          (⟨win1_5.index t (0 : Fin 2) * 5000 + 1 * p.val, by rw [e0]; have ht : t.val < 10 := t.isLt; have := p.isLt; omega⟩ : Fin 50000)
          (⟨win1_5.index t (1 : Fin 2) * 64 + 1 * j.val, by rw [e1]; have := j.isLt; omega⟩ : Fin 64)
  rw [hrow, hcol]
  exact NodeBody.stored_eq_nodeBlocksAt (V c main_arg0) (V c main_v25) (V c main_v26) (V c main_v27) (V c main_v28)
    (iblk1 V c 0 t) (iblk1 V c 1 t) (iblk1 V c 2 t) (iblk1 V c 3 t) (iblk1 V c 4 t) p j (nodeRow t p)
    (fun k => block0 V c t p k) (fun k => block1 V c t p k)
    (fun k => block2 V c t k j) (fun k => block3 V c t k j) (block4 V c t j)

/-! ## The blocks tile the array -/

theorem mem_block (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v29).slice (win1_5.rect t)).set ↔ _
  rw [View.set_slice_whole, Rect.mem_set_unit]
  exact Iff.rfl

/-- Every entry of the output array lies in the block of the point its row falls in. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 5000, by show (i 0).val / 5000 < 10; omega⟩
  obtain ⟨-, -, -, -, -, -, -, -, -, -, e0, e1⟩ := block_index t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    rw [e0]; show (i 0).val / 5000 * 5000 ≤ (i 0).val ∧ (i 0).val < (i 0).val / 5000 * 5000 + 5000; omega
  | ⟨1, _⟩ =>
    show win1_5.index t (1 : Fin 2) * 64 ≤ (i 1).val ∧ (i 1).val < win1_5.index t (1 : Fin 2) * 64 + 64
    rw [e1]; omega

/-! ## The output array after the last block -/

/-- After its 10 points the kernel's output array is the node function of the arrays it was entered with. -/
theorem array_eq (c : Dev nD) : (dat1 V c).arrAt 5 cfg1.N = updated V c :=
  (dat1 V c).arrAt_eq_of_cover 5 (updated V c) (fun t _ => flushed_eq V c t) cover

end Cert.KernelIdeal.NodeRegion

end
-- ==== Proof.KernelValue.lean ====
/-
  The kernel program's result as a function of its arguments.  The program is four stretches: host
  operations (the two gathers of endpoint features, the three row-blocks of the edge weights, the
  bias as a row), the edge kernel, host operations (the scatter-add of the messages onto their
  source nodes, the two row-blocks of the node weights, the bias as a row), the node kernel.  Each
  stretch's buffers are read back to the argument arrays; the gathers, the index preparation and the
  scatter-add are the very operations the reference applies, so they are named by the reference's
  stage functions and never opened.
-/
import proofs.«145678_j72026601554521_1_alg».proof.Proof.EdgeRegion
import proofs.«145678_j72026601554521_1_alg».proof.Proof.NodeRegion
import proofs.«145678_j72026601554521_1_alg».proof.Proof.Gen.ReferenceIdeal.Read
import Idealize.ShloMosaic.Lib.StableHlo.Run
import Idealize.ShloMosaic.Lib.Pipeline.Value

set_option maxRecDepth 16384

noncomputable section

namespace Cert.KernelIdeal.KernelValue

open Idealize.ShloMosaic Idealize.ShloMosaic.TcCoe Idealize.ShloMosaic.ValueIdx Idealize.SL.Sem
open Idealize.ShloMosaic.StableHlo
open Cert.KernelIdeal Cert.KernelIdeal.Gen Cert.MsgPass
open Cert.ReferenceIdeal.Read (val_main_v1 val_main_v10 val_main_v17 val_main_v24 val_main_v25)

variable (m : (ℓ : Loc nD τ sig) → Buf (Elt Ideal) ℓ) (ρ : Dev nD → PrngReg)

/-! ## The argument arrays -/

abbrev nodeFeat (c : Dev nD) := m ((c : Thread nD τ).loc main_arg0)
abbrev edgeIdx (c : Dev nD) := m ((c : Thread nD τ).loc main_arg1)
abbrev edgeFeat (c : Dev nD) := m ((c : Thread nD τ).loc main_arg2)
abbrev edgeW (c : Dev nD) := m ((c : Thread nD τ).loc main_arg3)
abbrev edgeB (c : Dev nD) := m ((c : Thread nD τ).loc main_arg4)
abbrev nodeW (c : Dev nD) := m ((c : Thread nD τ).loc main_arg5)
abbrev nodeB (c : Dev nD) := m ((c : Thread nD τ).loc main_arg6)

/-! ## What the edge kernel is entered with -/

/-- The gathered features of every edge's first endpoint: the reference's own gather of the same arrays. -/
theorem entry_first (c : Dev nD) :
    V1 m ρ c main_v10 = val_main_v10 (F := Ideal) (nodeFeat m c) (edgeIdx m c) := by
  show StableHlo.after hostOps0 (W0 m ρ c) (Proc.devRef .tc main_v10) = _
  after_results
  rfl

/-- The gathered features of every edge's second endpoint. -/
theorem entry_second (c : Dev nD) :
    V1 m ρ c main_v17 = val_main_v17 (F := Ideal) (nodeFeat m c) (edgeIdx m c) := by
  show StableHlo.after hostOps0 (W0 m ρ c) (Proc.devRef .tc main_v17) = _
  after_results
  rfl

/-- The edge features are the argument. -/
theorem entry_edgeFeat (c : Dev nD) : V1 m ρ c main_arg2 = edgeFeat m c := by
  show StableHlo.after hostOps0 (W0 m ρ c) (Proc.devRef .tc main_arg2) = _
  after_results

/-- Rows 0–63 of the edge weight matrix. -/
theorem entry_wa (c : Dev nD) (k : Fin 64) (j : Fin 32) :
    V1 m ρ c main_v18 (ix2 k j) = edgeW m c (ix2 (⟨k.val, by have := k.isLt; omega⟩ : Fin 160) j) := by
  have e : V1 m ρ c main_v18 = extractStridedSlice S64x32 ![0, 0] (edgeW m c) slices_S160x32_S64x32_0_0 := by
    show StableHlo.after hostOps0 (W0 m ρ c) (Proc.devRef .tc main_v18) = _
    after_results
  rw [e]
  exact extractStridedSlice_apply ![0, 0] (edgeW m c) slices_S160x32_S64x32_0_0 (ix2 k j) (ix2 (⟨k.val, by have := k.isLt; omega⟩ : Fin 160) j)
    (fun a => by
      match a with
      | ⟨0, _⟩ => show k.val = 0 + k.val; omega
      | ⟨1, _⟩ => show j.val = 0 + j.val; omega)

/-- Rows 64–127 of the edge weight matrix. -/
theorem entry_wb (c : Dev nD) (k : Fin 64) (j : Fin 32) :
    V1 m ρ c main_v19 (ix2 k j) = edgeW m c (ix2 (⟨64 + k.val, by have := k.isLt; omega⟩ : Fin 160) j) := by
  have e : V1 m ρ c main_v19 = extractStridedSlice S64x32 ![64, 0] (edgeW m c) slices_S160x32_S64x32_64_0 := by
    show StableHlo.after hostOps0 (W0 m ρ c) (Proc.devRef .tc main_v19) = _
    after_results
  rw [e]
  exact extractStridedSlice_apply ![64, 0] (edgeW m c) slices_S160x32_S64x32_64_0 (ix2 k j) (ix2 (⟨64 + k.val, by have := k.isLt; omega⟩ : Fin 160) j)
    (fun a => by
      match a with
      | ⟨0, _⟩ => show 64 + k.val = 64 + k.val; rfl
      | ⟨1, _⟩ => show j.val = 0 + j.val; omega)

/-- Rows 128–159 of the edge weight matrix. -/
theorem entry_wc (c : Dev nD) (k : Fin 32) (j : Fin 32) :
    V1 m ρ c main_v20 (ix2 k j) = edgeW m c (ix2 (⟨128 + k.val, by have := k.isLt; omega⟩ : Fin 160) j) := by
  have e : V1 m ρ c main_v20 = extractStridedSlice S32x32 ![128, 0] (edgeW m c) slices_S160x32_S32x32_128_0 := by
    show StableHlo.after hostOps0 (W0 m ρ c) (Proc.devRef .tc main_v20) = _
    after_results
  rw [e]
  exact extractStridedSlice_apply ![128, 0] (edgeW m c) slices_S160x32_S32x32_128_0 (ix2 k j) (ix2 (⟨128 + k.val, by have := k.isLt; omega⟩ : Fin 160) j)
    (fun a => by
      match a with
      | ⟨0, _⟩ => show 128 + k.val = 128 + k.val; rfl
      | ⟨1, _⟩ => show j.val = 0 + j.val; omega)

/-- The edge bias as a one-row matrix. -/
theorem entry_bias (c : Dev nD) (j : Fin 32) :
    V1 m ρ c main_v21 (ix2 (0 : Fin 1) j) = edgeB m c (ix1 j) := by
  have e : V1 m ρ c main_v21 = shapeCast S1x32 (edgeB m c) shapeCasts_S32_S1x32 := by
    show StableHlo.after hostOps0 (W0 m ρ c) (Proc.devRef .tc main_v21) = _
    after_results
    rfl
  rw [e]
  exact shapeCast_apply (edgeB m c) shapeCasts_S32_S1x32 (ix2 (0 : Fin 1) j) (ix1 j)
    (by show (Shape.rowMajor S32 (ix1 j)).val = (Shape.rowMajor S1x32 (ix2 (0 : Fin 1) j)).val
        rewrite [Shape.rowMajor_val_one, Shape.rowMajor_val_two]; show j.val = 0 * 32 + j.val; omega)

/-! ## The messages when the edge kernel is left -/

/-- The message array: the message function of the two gathers, the edge features, the whole edge
    weight matrix and the edge bias. -/
theorem exit_messages (c : Dev nD) :
    W2 m ρ c (Proc.devRef .tc main_v22)
      = edgeWhole (val_main_v10 (F := Ideal) (nodeFeat m c) (edgeIdx m c)) (val_main_v17 (F := Ideal) (nodeFeat m c) (edgeIdx m c))
          (edgeFeat m c) (edgeW m c) (edgeB m c) := by
  refine (W2_arr m ρ c 7).trans ((EdgeRegion.array_eq (V1 m ρ) c).trans ?_)
  show edgeBlocks (V1 m ρ c main_v10) (V1 m ρ c main_v17) (V1 m ρ c main_arg2) (V1 m ρ c main_v18) (V1 m ρ c main_v19)
      (V1 m ρ c main_v20) (V1 m ρ c main_v21) = _
  rw [entry_first, entry_second, entry_edgeFeat]
  exact edgeBlocks_eq_edgeWhole _ _ _ _ _ _ _ (edgeW m c) (edgeB m c) (entry_wa m ρ c) (entry_wb m ρ c) (entry_wc m ρ c)
    (entry_bias m ρ c)

/-! ## What the node kernel is entered with -/

/-- An argument array no stretch writes is still the argument when the edge kernel is left. -/
theorem exit_nodeFeat (c : Dev nD) : W2 m ρ c (Proc.devRef .tc main_arg0) = nodeFeat m c := by
  rw [W2_of_ne m ρ c main_arg0 (by decide)]
  show StableHlo.after hostOps0 (W0 m ρ c) (Proc.devRef .tc main_arg0) = _
  after_results
theorem exit_nodeW (c : Dev nD) : W2 m ρ c (Proc.devRef .tc main_arg5) = nodeW m c := by
  rw [W2_of_ne m ρ c main_arg5 (by decide)]
  show StableHlo.after hostOps0 (W0 m ρ c) (Proc.devRef .tc main_arg5) = _
  after_results
theorem exit_nodeB (c : Dev nD) : W2 m ρ c (Proc.devRef .tc main_arg6) = nodeB m c := by
  rw [W2_of_ne m ρ c main_arg6 (by decide)]
  show StableHlo.after hostOps0 (W0 m ρ c) (Proc.devRef .tc main_arg6) = _
  after_results
/-- The source node of every edge, as the scatter-add reads it: the reference's own stage. -/
theorem exit_source (c : Dev nD) : W2 m ρ c (Proc.devRef .tc main_v1) = val_main_v1 (F := Ideal) (edgeIdx m c) := by
  rw [W2_of_ne m ρ c main_v1 (by decide)]
  show StableHlo.after hostOps0 (W0 m ρ c) (Proc.devRef .tc main_v1) = _
  after_results
  rfl

/-- The node features are the argument. -/
theorem entry2_nodeFeat (c : Dev nD) : V3 m ρ c main_arg0 = nodeFeat m c := by
  show StableHlo.after hostOps1 (W2 m ρ c) (Proc.devRef .tc main_arg0) = _
  after_results
  exact exit_nodeFeat m ρ c

/-- The messages summed onto their source nodes: the reference's own scatter-add, of the message array. -/
theorem entry2_sums (c : Dev nD) :
    V3 m ρ c main_v25
      = Host.scatterAdd (F := Ideal) (φ := .f32) Cert.ReferenceIdeal.scatter_S50000x32_S1600000x1_S1600000x32_1_0_0_1
          (val_main_v24 (F := Ideal)) (val_main_v25 (F := Ideal) (edgeIdx m c))
          (edgeWhole (val_main_v10 (F := Ideal) (nodeFeat m c) (edgeIdx m c)) (val_main_v17 (F := Ideal) (nodeFeat m c) (edgeIdx m c))
            (edgeFeat m c) (edgeW m c) (edgeB m c)) := by
  show StableHlo.after hostOps1 (W2 m ρ c) (Proc.devRef .tc main_v25) = _
  after_results
  rw [exit_messages, exit_source]
  rfl

/-- Rows 0–63 of the node weight matrix. -/
theorem entry2_wa (c : Dev nD) (k : Fin 64) (j : Fin 64) :
    V3 m ρ c main_v26 (ix2 k j) = nodeW m c (ix2 (⟨k.val, by have := k.isLt; omega⟩ : Fin 96) j) := by
  have e : V3 m ρ c main_v26 = extractStridedSlice S64x64 ![0, 0] (nodeW m c) slices_S96x64_S64x64_0_0 := by
    show StableHlo.after hostOps1 (W2 m ρ c) (Proc.devRef .tc main_v26) = _
    after_results
    rw [exit_nodeW]
  rw [e]
  exact extractStridedSlice_apply ![0, 0] (nodeW m c) slices_S96x64_S64x64_0_0 (ix2 k j) (ix2 (⟨k.val, by have := k.isLt; omega⟩ : Fin 96) j)
    (fun a => by
      match a with
      | ⟨0, _⟩ => show k.val = 0 + k.val; omega
      | ⟨1, _⟩ => show j.val = 0 + j.val; omega)

/-- Rows 64–95 of the node weight matrix. -/
theorem entry2_wb (c : Dev nD) (k : Fin 32) (j : Fin 64) :
    V3 m ρ c main_v27 (ix2 k j) = nodeW m c (ix2 (⟨64 + k.val, by have := k.isLt; omega⟩ : Fin 96) j) := by
  have e : V3 m ρ c main_v27 = extractStridedSlice S32x64 ![64, 0] (nodeW m c) slices_S96x64_S32x64_64_0 := by
    show StableHlo.after hostOps1 (W2 m ρ c) (Proc.devRef .tc main_v27) = _
    after_results
    rw [exit_nodeW]
  rw [e]
  exact extractStridedSlice_apply ![64, 0] (nodeW m c) slices_S96x64_S32x64_64_0 (ix2 k j) (ix2 (⟨64 + k.val, by have := k.isLt; omega⟩ : Fin 96) j)
    (fun a => by
      match a with
      | ⟨0, _⟩ => show 64 + k.val = 64 + k.val; rfl
      | ⟨1, _⟩ => show j.val = 0 + j.val; omega)

/-- The node bias as a one-row matrix. -/
theorem entry2_bias (c : Dev nD) (j : Fin 64) :
    V3 m ρ c main_v28 (ix2 (0 : Fin 1) j) = nodeB m c (ix1 j) := by
  have e : V3 m ρ c main_v28 = shapeCast S1x64 (nodeB m c) shapeCasts_S64_S1x64 := by
    show StableHlo.after hostOps1 (W2 m ρ c) (Proc.devRef .tc main_v28) = _
    after_results
    rw [exit_nodeB]
    rfl
  rw [e]
  exact shapeCast_apply (nodeB m c) shapeCasts_S64_S1x64 (ix2 (0 : Fin 1) j) (ix1 j)
    (by show (Shape.rowMajor S64 (ix1 j)).val = (Shape.rowMajor S1x64 (ix2 (0 : Fin 1) j)).val
        rewrite [Shape.rowMajor_val_one, Shape.rowMajor_val_two]; show j.val = 0 * 64 + j.val; omega)

/-! ## The result -/

/-- The result buffer when the node kernel is left: the node function of the node features and of
    the scatter-add of the message function of the two gathers. -/
theorem result_value (c : Dev nD) :
    W4 m ρ c (Proc.devRef .tc main_v29)
      = nodeWhole (nodeFeat m c)
          (Host.scatterAdd (F := Ideal) (φ := .f32) Cert.ReferenceIdeal.scatter_S50000x32_S1600000x1_S1600000x32_1_0_0_1
            (val_main_v24 (F := Ideal)) (val_main_v25 (F := Ideal) (edgeIdx m c))
            (edgeWhole (val_main_v10 (F := Ideal) (nodeFeat m c) (edgeIdx m c)) (val_main_v17 (F := Ideal) (nodeFeat m c) (edgeIdx m c))
              (edgeFeat m c) (edgeW m c) (edgeB m c)))
          (nodeW m c) (nodeB m c) := by
  refine (W4_arr m ρ c 5).trans ((NodeRegion.array_eq (V3 m ρ) c).trans ?_)
  show nodeBlocks (V3 m ρ c main_arg0) (V3 m ρ c main_v25) (V3 m ρ c main_v26) (V3 m ρ c main_v27) (V3 m ρ c main_v28) = _
  rw [entry2_nodeFeat, entry2_sums]
  exact nodeBlocks_eq_nodeWhole _ _ _ _ _ (nodeW m c) (nodeB m c) (entry2_wa m ρ c) (entry2_wb m ρ c) (entry2_bias m ρ c)

end Cert.KernelIdeal.KernelValue

end
-- ==== Proof.RefValue.lean ====
/-
  The reference, stage by stage, as the functions of Spec.  The reference joins the two gathered
  endpoint rows and the edge's own features into one row of 160 numbers and multiplies by the
  whole 160 × 32 weight matrix; the product's entry is a sum over 160 positions, which splits into
  the positions of the three joined pieces.  The node stage is the same with a joined row of
  64 + 32 numbers.  The gathers and the scatter-add stay as they are printed: they are the same
  operations in both programs and are never opened.
-/
import proofs.«145678_j72026601554521_1_alg».proof.Proof.Gen.ReferenceIdeal.Read
import proofs.«145678_j72026601554521_1_alg».proof.Proof.Spec
import Idealize.ShloMosaic.Lib.Pipeline.Value
import Idealize.ShloMosaic.Lib.ValueIdx

noncomputable section

namespace Cert.ReferenceIdeal.RefValue

open Idealize.ShloMosaic Idealize.ShloMosaic.ValueIdx Cert.ReferenceIdeal Cert.ReferenceIdeal.Gen
open Cert.ReferenceIdeal.Read Cert.MsgPass

variable (x0 : (⟨S50000x64, .f32⟩ : BufTy).Contents (Elt Ideal)) (x1 : (⟨S2x1600000, .i32⟩ : BufTy).Contents (Elt Ideal))
  (x2 : (⟨S1600000x32, .f32⟩ : BufTy).Contents (Elt Ideal)) (x3 : (⟨S160x32, .f32⟩ : BufTy).Contents (Elt Ideal))
  (x4 : (⟨S32, .f32⟩ : BufTy).Contents (Elt Ideal)) (x5 : (⟨S96x64, .f32⟩ : BufTy).Contents (Elt Ideal))
  (x6 : (⟨S64, .f32⟩ : BufTy).Contents (Elt Ideal))

/-! ## The joined edge row, piece by piece -/

/-- Positions 0–63 of edge e's joined row are the gathered features of its first endpoint. -/
theorem joined_first (e : Fin 1600000) (j : Fin 32) (k : Fin 64) :
    val_main_v18 (F := Ideal) x0 x1 x2 (lidx_main_v19 (ix2 e j) ⟨k.val, by have := k.isLt; omega⟩)
      = val_main_v10 (F := Ideal) x0 x1 (ix2 e k) := by
  unfold val_main_v18
  exact concatenate_apply_piece (1 : Fin S1600000x160.rank)
    [⟨S1600000x64, val_main_v10 (F := Ideal) x0 x1⟩, ⟨S1600000x64, val_main_v17 (F := Ideal) x0 x1⟩, ⟨S1600000x32, x2⟩]
    concatenates_S1600000x64_S1600000x64_S1600000x32_S1600000x160_d1 _
    0 (show (0 : Nat) < 3 by omega) S1600000x64 (val_main_v10 (F := Ideal) x0 x1) rfl rfl 0 rfl (ix2 e k)
    (fun b hb => by
      match b with
      | ⟨0, _⟩ => rfl
      | ⟨1, _⟩ => exact absurd (Fin.ext rfl) hb)
    (Nat.zero_add _)

/-- Positions 64–127 are the gathered features of its second endpoint. -/
theorem joined_second (e : Fin 1600000) (j : Fin 32) (k : Fin 64) :
    val_main_v18 (F := Ideal) x0 x1 x2 (lidx_main_v19 (ix2 e j) ⟨64 + k.val, by have := k.isLt; omega⟩)
      = val_main_v17 (F := Ideal) x0 x1 (ix2 e k) := by
  unfold val_main_v18
  exact concatenate_apply_piece (1 : Fin S1600000x160.rank)
    [⟨S1600000x64, val_main_v10 (F := Ideal) x0 x1⟩, ⟨S1600000x64, val_main_v17 (F := Ideal) x0 x1⟩, ⟨S1600000x32, x2⟩]
    concatenates_S1600000x64_S1600000x64_S1600000x32_S1600000x160_d1 _
    1 (show (1 : Nat) < 3 by omega) S1600000x64 (val_main_v17 (F := Ideal) x0 x1) rfl rfl 64 rfl (ix2 e k)
    (fun b hb => by
      match b with
      | ⟨0, _⟩ => rfl
      | ⟨1, _⟩ => exact absurd (Fin.ext rfl) hb)
    rfl

/-- Positions 128–159 are the edge's own features. -/
theorem joined_third (e : Fin 1600000) (j : Fin 32) (k : Fin 32) :
    val_main_v18 (F := Ideal) x0 x1 x2 (lidx_main_v19 (ix2 e j) ⟨128 + k.val, by have := k.isLt; omega⟩)
      = x2 (ix2 e k) := by
  unfold val_main_v18
  exact concatenate_apply_piece (1 : Fin S1600000x160.rank)
    [⟨S1600000x64, val_main_v10 (F := Ideal) x0 x1⟩, ⟨S1600000x64, val_main_v17 (F := Ideal) x0 x1⟩, ⟨S1600000x32, x2⟩]
    concatenates_S1600000x64_S1600000x64_S1600000x32_S1600000x160_d1 _
    2 (show (2 : Nat) < 3 by omega) S1600000x32 x2 rfl rfl 128 rfl (ix2 e k)
    (fun b hb => by
      match b with
      | ⟨0, _⟩ => rfl
      | ⟨1, _⟩ => exact absurd (Fin.ext rfl) hb)
    rfl

/-- The weight matrix is read at (k, j). -/
theorem weight_at (e : Fin 1600000) (j : Fin 32) (k : Fin 160) : ridx_main_v19 (ix2 e j) k = ix2 k j :=
  funext fun a => by
    match a with
    | ⟨0, _⟩ => rfl
    | ⟨1, _⟩ => rfl

/-! ## The messages -/

/-- The reference's messages are the message function of the two gathered arrays, the edge
    features, the whole weight matrix and the bias. -/
theorem messages_eq :
    val_main_v23 (F := Ideal) x0 x1 x2 x3 x4
      = edgeWhole (val_main_v10 (F := Ideal) x0 x1) (val_main_v17 (F := Ideal) x0 x1) x2 x3 x4 := by
  funext i
  obtain ⟨e, j, rfl⟩ : ∃ (e : Fin 1600000) (j : Fin 32), i = ix2 e j := ⟨i 0, i 1, eq_ix2 i⟩
  rw [val_main_v23_apply, val_main_v22_apply, val_main_v19_apply, val_main_v21_apply, val_main_v20_apply,
    val_main_call0_v0_apply, val_main_call0_cst_apply]
  show max ((∑ k : Fin 160, val_main_v18 (F := Ideal) x0 x1 x2 (lidx_main_v19 (ix2 e j) k) * x3 (ridx_main_v19 (ix2 e j) k))
        + x4 (idx_main_v20 (idx_main_v21 (ix2 e j)))) zeroWord
      = edgeWholeAt (val_main_v10 (F := Ideal) x0 x1) (val_main_v17 (F := Ideal) x0 x1) x2 x3 x4 e j
  unfold edgeWholeAt
  rw [sum_split_64_64_32]
  refine congrArg₂ max (congrArg₂ (· + ·) (congrArg₂ (· + ·) (congrArg₂ (· + ·) ?_ ?_) ?_) ?_) rfl
  · exact Finset.sum_congr rfl fun k _ => by rw [joined_first, weight_at]
  · exact Finset.sum_congr rfl fun k _ => by rw [joined_second, weight_at]
  · exact Finset.sum_congr rfl fun k _ => by rw [joined_third, weight_at]
  · exact congrArg x4 (funext fun a => by
      match a with
      | ⟨0, _⟩ => rfl)

/-! ## The joined node row, piece by piece -/

/-- Positions 0–63 of node n's joined row are its own features. -/
theorem node_joined_first (n : Fin 50000) (j : Fin 64) (k : Fin 64) :
    val_main_v27 (F := Ideal) x0 x1 x2 x3 x4 (lidx_main_v28 (ix2 n j) ⟨k.val, by have := k.isLt; omega⟩) = x0 (ix2 n k) := by
  unfold val_main_v27
  exact concatenate_apply_piece (1 : Fin S50000x96.rank)
    [⟨S50000x64, x0⟩, ⟨S50000x32, val_main_v26 (F := Ideal) x0 x1 x2 x3 x4⟩]
    concatenates_S50000x64_S50000x32_S50000x96_d1 _
    0 (show (0 : Nat) < 2 by omega) S50000x64 x0 rfl rfl 0 rfl (ix2 n k)
    (fun b hb => by
      match b with
      | ⟨0, _⟩ => rfl
      | ⟨1, _⟩ => exact absurd (Fin.ext rfl) hb)
    (Nat.zero_add _)

/-- Positions 64–95 are the messages summed onto it. -/
theorem node_joined_second (n : Fin 50000) (j : Fin 64) (k : Fin 32) :
    val_main_v27 (F := Ideal) x0 x1 x2 x3 x4 (lidx_main_v28 (ix2 n j) ⟨64 + k.val, by have := k.isLt; omega⟩)
      = val_main_v26 (F := Ideal) x0 x1 x2 x3 x4 (ix2 n k) := by
  unfold val_main_v27
  exact concatenate_apply_piece (1 : Fin S50000x96.rank)
    [⟨S50000x64, x0⟩, ⟨S50000x32, val_main_v26 (F := Ideal) x0 x1 x2 x3 x4⟩]
    concatenates_S50000x64_S50000x32_S50000x96_d1 _
    1 (show (1 : Nat) < 2 by omega) S50000x32 (val_main_v26 (F := Ideal) x0 x1 x2 x3 x4) rfl rfl 64 rfl (ix2 n k)
    (fun b hb => by
      match b with
      | ⟨0, _⟩ => rfl
      | ⟨1, _⟩ => exact absurd (Fin.ext rfl) hb)
    rfl

/-- The node weight matrix is read at (k, j). -/
theorem node_weight_at (n : Fin 50000) (j : Fin 64) (k : Fin 96) : ridx_main_v28 (ix2 n j) k = ix2 k j :=
  funext fun a => by
    match a with
    | ⟨0, _⟩ => rfl
    | ⟨1, _⟩ => rfl

/-! ## The new node features -/

/-- The reference's result is the node function of the node features, the summed messages, the
    whole weight matrix and the bias. -/
theorem updated_eq :
    val_main_v32 (F := Ideal) x0 x1 x2 x3 x4 x5 x6
      = nodeWhole x0 (val_main_v26 (F := Ideal) x0 x1 x2 x3 x4) x5 x6 := by
  funext i
  obtain ⟨n, j, rfl⟩ : ∃ (n : Fin 50000) (j : Fin 64), i = ix2 n j := ⟨i 0, i 1, eq_ix2 i⟩
  rw [val_main_v32_apply, val_main_v31_apply, val_main_v28_apply, val_main_v30_apply, val_main_v29_apply,
    val_main_call1_v0_apply, val_main_call1_cst_apply]
  show max ((∑ k : Fin 96, val_main_v27 (F := Ideal) x0 x1 x2 x3 x4 (lidx_main_v28 (ix2 n j) k) * x5 (ridx_main_v28 (ix2 n j) k))
        + x6 (idx_main_v29 (idx_main_v30 (ix2 n j)))) zeroWord
      = nodeWholeAt x0 (val_main_v26 (F := Ideal) x0 x1 x2 x3 x4) x5 x6 n j
  unfold nodeWholeAt
  rw [sum_split_64_32]
  refine congrArg₂ max (congrArg₂ (· + ·) (congrArg₂ (· + ·) ?_ ?_) ?_) rfl
  · exact Finset.sum_congr rfl fun k _ => by rw [node_joined_first, node_weight_at]
  · exact Finset.sum_congr rfl fun k _ => by rw [node_joined_second, node_weight_at]
  · exact congrArg x6 (funext fun a => by
      match a with
      | ⟨0, _⟩ => rfl)

/-- The whole reference: the node function of the node features and of the scatter-add of the
    message function of the two gathers. -/
theorem result_eq :
    val_main_v32 (F := Ideal) x0 x1 x2 x3 x4 x5 x6
      = nodeWhole x0
          (Host.scatterAdd (F := Ideal) (φ := .f32) scatter_S50000x32_S1600000x1_S1600000x32_1_0_0_1 (val_main_v24 (F := Ideal)) (val_main_v25 (F := Ideal) x1)
            (edgeWhole (val_main_v10 (F := Ideal) x0 x1) (val_main_v17 (F := Ideal) x0 x1) x2 x3 x4)) x5 x6 := by
  rw [updated_eq, ← messages_eq]
  rfl

end Cert.ReferenceIdeal.RefValue

end
-- ==== Proof.lean ====
/-
  One message-passing layer of a graph network, computed two ways.

  Both programs gather the features of every edge's two endpoints, form a message per edge, sum
  the messages onto the edges' source nodes and form a new feature row per node.  The reference
  joins the gathered rows with the edge's own features into one row of 160 numbers and multiplies
  by the whole edge weight matrix; the kernel multiplies the three pieces by the matching row-blocks
  of the matrix in three products and adds them.  The node stage differs in the same way (a joined
  row of 64 + 32 numbers against two products).  Read exactly, each product is a finite sum over
  the contracted axis and the two forms differ only in how that sum is grouped, so they agree on
  all extended reals and no finiteness of the inputs is used.  The gathers, the preparation of the
  indices and the scatter-add are the same operations on the same arrays in both programs and
  are carried through unopened; the kernel's lower float precision inside its products is the
  identity at the exact reading.

  The frames of the two kernel programs are the generated ones; the reference's frame is its run
  with the result dropped; no operation of the kernel was rewritten when it was idealized.
-/
import proofs.«145678_j72026601554521_1_alg».proof.Defs
import proofs.«145678_j72026601554521_1_alg».proof.Proof.Gen.Kernel
import proofs.«145678_j72026601554521_1_alg».proof.Proof.Gen.Kernel.Skeleton
import proofs.«145678_j72026601554521_1_alg».proof.Proof.Gen.Kernel.Launch
import proofs.«145678_j72026601554521_1_alg».proof.Proof.Gen.Kernel.Points
import proofs.«145678_j72026601554521_1_alg».proof.Proof.Gen.Kernel.Frame
import proofs.«145678_j72026601554521_1_alg».proof.Proof.Gen.KernelIdeal
import proofs.«145678_j72026601554521_1_alg».proof.Proof.Gen.KernelIdeal.Skeleton
import proofs.«145678_j72026601554521_1_alg».proof.Proof.Gen.KernelIdeal.Launch
import proofs.«145678_j72026601554521_1_alg».proof.Proof.Gen.KernelIdeal.Points
import proofs.«145678_j72026601554521_1_alg».proof.Proof.Gen.KernelIdeal.Frame
import proofs.«145678_j72026601554521_1_alg».proof.Proof.Gen.ReferenceIdeal
import proofs.«145678_j72026601554521_1_alg».proof.Proof.Gen.Pre_finite_inputs
import proofs.«145678_j72026601554521_1_alg».proof.Proof.Gen.ReferenceIdeal.Run
import proofs.«145678_j72026601554521_1_alg».proof.Proof.Gen.ReferenceIdeal.Read
import proofs.«145678_j72026601554521_1_alg».proof.Proof.KernelRun
import proofs.«145678_j72026601554521_1_alg».proof.Proof.KernelValue
import proofs.«145678_j72026601554521_1_alg».proof.Proof.RefValue
import Idealize.ShloMosaic.Adequacy
import Idealize.ShloMosaic.Init

noncomputable section

namespace Cert.Proof

open Idealize.ShloMosaic Idealize.SL.Sem

/-- The reference terminates without a fault and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same result: the
    node function of the node features and of the scatter-add of the message function of the two
    gathers, the kernel by its two grids of blocks, the reference by splitting its two sums. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KernelValue.result_value m ρ c), (h c).2⟩)
      (Cert.KernelIdeal.Run.run_result (F := Ideal) m ρ), ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v32_eq (F := Ideal) _ _ _ _ _ _ _).trans
    (Cert.ReferenceIdeal.RefValue.result_eq _ _ _ _ _ _ _)).trans ?_
  rw [(hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
